-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x16x16 : Shape := ⟨3, ![10000, 16, 16]⟩
abbrev S10000x10000 : Shape := ⟨2, ![10000, 10000]⟩
abbrev S256x256 : Shape := ⟨2, ![256, 256]⟩
abbrev S_ : Shape := ⟨0, ![]⟩

class Facts : Prop where
  bcast_S_S10000x16x16 : S_.BroadcastsInDim S10000x16x16 (![] : Fin 0 → Fin S10000x16x16.rank)
  reducesTo_S10000x16x16_S_d0_1_2 : S10000x16x16.ReducesTo [0, 1, 2] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S256x256 : S_.BroadcastsInDim S256x256 (![] : Fin 0 → Fin S256x256.rank)
  reducesTo_S256x256_S_d0_1 : S256x256.ReducesTo [0, 1] S_

variable [Facts]

def fn {F : FTy → Type} [FloatOps F] (main_arg0 : FVec F S10000x16x16 .f32) (main_arg1 : FVec F S10000x10000 .f32) (main_arg2 : FVec F S256x256 .f32) : IVec S_ 1 :=
  let main_v0 : FVec F S10000x16x16 .f32 := Host.absf main_arg0
  let main_cst : FVec F S_ .f32 := constant S_ .f32 0x7F800000#32
  let main_v1 : FVec F S10000x16x16 .f32 := broadcastInDim S10000x16x16 ![] bcast_S_S10000x16x16 main_cst
  let main_v2 : IVec S10000x16x16 1 := cmpf .olt main_v0 main_v1
  let main_c : IVec S_ 1 := constantI S_ 1 1#1
  let main_v3 : IVec S_ 1 := (fun x v => Host.reduce IntOp.andi x v reducesTo_S10000x16x16_S_d0_1_2 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  main_v13
-- ==== Kernel.lean ====
abbrev S10000x16x16 : Shape := ⟨3, ![10000, 16, 16]⟩
abbrev S10000x10000 : Shape := ⟨2, ![10000, 10000]⟩
abbrev S256x256 : Shape := ⟨2, ![256, 256]⟩
abbrev S10000x256 : Shape := ⟨2, ![10000, 256]⟩
abbrev S200x10000 : Shape := ⟨2, ![200, 10000]⟩
abbrev S400x256 : Shape := ⟨2, ![400, 256]⟩
abbrev S200x256 : Shape := ⟨2, ![200, 256]⟩

abbrev nBuf : Space → Nat
  | .hbm => 5
  | .vmem => 9
  | .smem => 0
  | _ => 0

abbrev bufTy : (tb : Table) → Fin (tcTables nBuf tb) → BufTy
  | .hbm, ⟨0, _⟩ => ⟨S10000x16x16, .f32⟩
  | .hbm, ⟨1, _⟩ => ⟨S10000x10000, .f32⟩
  | .hbm, ⟨2, _⟩ => ⟨S256x256, .f32⟩
  | .hbm, ⟨3, _⟩ => ⟨S10000x256, .f32⟩
  | .hbm, ⟨4, _⟩ => ⟨S10000x256, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x256, .f32⟩
  | .local _ .vmem, ⟨5, _⟩ => ⟨S256x256, .f32⟩
  | .local _ .vmem, ⟨6, _⟩ => ⟨S400x256, .f32⟩
  | .local _ .vmem, ⟨7, _⟩ => ⟨S400x256, .f32⟩
  | .local _ .vmem, ⟨8, _⟩ => ⟨S10000x256, .f32⟩
  | _, _ => ⟨S10000x16x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c2_i32 : BitVec 32 := 2#32
  let v0 : BitVec 32 := Scalar.muli c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S400x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  shapeCasts_S10000x16x16_S10000x256 : S10000x16x16.ShapeCasts S10000x256
  inb_S10000x256_S10000x256_0_0 : ∀ a, (![0, 0] : Fin 2 → Nat) a + S10000x256.size a ≤ S10000x256.size a
  h_S10000x256 : 0 < S10000x256.numel
  shapeCasts_S10000x256_S10000x256 : S10000x256.ShapeCasts S10000x256
  inb_S256x256_S256x256_0_0 : ∀ a, (![0, 0] : Fin 2 → Nat) a + S256x256.size a ≤ S256x256.size a
  h_S256x256 : 0 < S256x256.numel
  inb_S200x10000_S200x10000_0_0 : ∀ a, (![0, 0] : Fin 2 → Nat) a + S200x10000.size a ≤ S200x10000.size a
  h_S200x10000 : 0 < S200x10000.numel
  inb_S400x256_S200x256_0_0 : ∀ a, (![0, 0] : Fin 2 → Nat) a + S200x256.size a ≤ S400x256.size a
  h_S200x256 : 0 < S200x256.numel
  inb_S400x256_S200x256_200_0 : ∀ a, (![200, 0] : Fin 2 → Nat) a + S200x256.size a ≤ S400x256.size a
  dot_S10000x256_S256x256_S10000x256_1_0_0_1_n_n_wf : DotDims.WF S10000x256 S256x256 S10000x256 [1] [0] [0] [1] [] []
  dot_S200x10000_S10000x256_S200x256_1_0_0_1_n_n_wf : DotDims.WF S200x10000 S10000x256 S200x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x256.size a ≤ S10000x256.size a
  hwx0_2 : ∀ i : grid0.Coords, EltTy.bits .f32 = 32 ∨ (Rect.block (s := S10000x256) S10000x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x256.size a ≤ S10000x256.size a
  hwx0_4 : ∀ i : grid0.Coords, EltTy.bits .f32 = 32 ∨ (Rect.block (s := S10000x256) S400x256.size (cc0_transform_4 i) (hinb0_4 i)).WholeWords (EltTy.packing .f32)

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S200x10000_S10000x256_S200x256_1_0_0_1_n_n : DotDims S200x10000 S10000x256 S200x256 where
  lhsContracting := [1]
  rhsContracting := [0]
  lhsNonContracting := [0]
  rhsNonContracting := [1]
  lhsBatch := []
  rhsBatch := []
  wf := dot_S200x10000_S10000x256_S200x256_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S10000x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S10000x16x16 : Shape := ⟨3, ![10000, 16, 16]⟩
abbrev S10000x10000 : Shape := ⟨2, ![10000, 10000]⟩
abbrev S256x256 : Shape := ⟨2, ![256, 256]⟩
abbrev S10000x256 : Shape := ⟨2, ![10000, 256]⟩

abbrev nBuf : Space → Nat
  | .hbm => 6
  | .vmem => 0
  | .smem => 0
  | _ => 0

abbrev bufTy : (tb : Table) → Fin (tcTables nBuf tb) → BufTy
  | .hbm, ⟨0, _⟩ => ⟨S10000x16x16, .f32⟩
  | .hbm, ⟨1, _⟩ => ⟨S10000x10000, .f32⟩
  | .hbm, ⟨2, _⟩ => ⟨S256x256, .f32⟩
  | .hbm, ⟨3, _⟩ => ⟨S10000x256, .f32⟩
  | .hbm, ⟨4, _⟩ => ⟨S10000x256, .f32⟩
  | .hbm, ⟨5, _⟩ => ⟨S10000x256, .f32⟩
  | _, _ => ⟨S10000x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  shapeCasts_S10000x16x16_S10000x256 : S10000x16x16.ShapeCasts S10000x256
  dot_S10000x256_S256x256_S10000x256_1_0_0_1_n_n_wf : DotDims.WF S10000x256 S256x256 S10000x256 [1] [0] [0] [1] [] []
  dot_S10000x10000_S10000x256_S10000x256_1_0_0_1_n_n_wf : DotDims.WF S10000x10000 S10000x256 S10000x256 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def dot_S10000x10000_S10000x256_S10000x256_1_0_0_1_n_n : DotDims S10000x10000 S10000x256 S10000x256 where
  lhsContracting := [1]
  rhsContracting := [0]
  lhsNonContracting := [0]
  rhsNonContracting := [1]
  lhsBatch := []
  rhsBatch := []
  wf := dot_S10000x10000_S10000x256_S10000x256_1_0_0_1_n_n_wf

class Facts : Prop extends Facts₀ where

variable [Facts]
-- ==== Proof.Bits.Body.lean ====
/-
  The kernel body of the graph-convolution layer, run once symbolically at an arbitrary grid point.

  At a grid point the body is handed two 200 x 10000 row tiles of the adjacency matrix (`a`, `b`: rows 400 t .. 400 t + 199 and
  400 t + 200 .. 400 t + 399), the flattened features `xf` (10000 x 256) and the weights `w` (256 x 256), a 400 x 256 output
  tile, and a 10000 x 256 scratch that it keeps from one point to the next.
  * At the first point it stores the support matrix `xf · w` into the scratch.
  * At every point it stores `a · S` into the output tile's rows 0 .. 199 and `b · S` into its rows 200 .. 399, where `S` is what
    the scratch then holds.
  So the scratch holds the support matrix after the first point and is only read afterwards: the output tile is the same
  function `outTile a b S` of the two adjacency tiles and the support matrix at every point.
-/
import proofs.«104771_g55241869361592_cont_9to1c4b_774_7_alg».proof.Proof.Gen.Kernel.Launch
import proofs.«104771_g55241869361592_cont_9to1c4b_774_7_alg».proof.Proof.Gen.Kernel.Skeleton
import proofs.«104771_g55241869361592_cont_9to1c4b_774_7_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes through -/

/-- The whole scratch / the whole feature tile. -/
abbrev rS : Rect S10000x256 := Rect.unit (s := S10000x256) ![0, 0] S10000x256.size inb_S10000x256_S10000x256_0_0
/-- The whole weight tile. -/
abbrev rW : Rect S256x256 := Rect.unit (s := S256x256) ![0, 0] S256x256.size inb_S256x256_S256x256_0_0
/-- A whole adjacency row tile. -/
abbrev rA : Rect S200x10000 := Rect.unit (s := S200x10000) ![0, 0] S200x10000.size inb_S200x10000_S200x10000_0_0
/-- Rows 0 .. 199 of the output tile. -/
abbrev rLo : Rect S400x256 := Rect.unit (s := S400x256) ![0, 0] S200x256.size inb_S400x256_S200x256_0_0
/-- Rows 200 .. 399 of the output tile. -/
abbrev rHi : Rect S400x256 := Rect.unit (s := S400x256) ![200, 0] S200x256.size inb_S400x256_S200x256_200_0

theorem zero2 : (![0, 0] : Fin 2 → Nat) = fun _ => 0 := funext fun a => by fin_cases a <;> rfl

/-! ## What the body computes -/

/-- The support matrix: the features times the weights. -/
def support (xf : Vec F S10000x256 .f32) (w : Vec F S256x256 .f32) : Vec F S10000x256 .f32 := k0_pay1 xf w

/-- The output tile: rows 0 .. 199 are the first adjacency tile times the support matrix, rows 200 .. 399 the second
    adjacency tile times it (the later store listed first). -/
def outTile (a b : Vec F S200x10000 .f32) (s : Vec F S10000x256 .f32) : Vec F S400x256 .f32 :=
  View.canon [⟨rHi, k0_pay3 b s⟩, ⟨rLo, k0_pay2 a s⟩]

/-- The two half tiles cover the output tile. -/
theorem outTile_cover (p q : Vec F S200x256 .f32) (y : S400x256.Idx) :
    ∃ pc ∈ ([⟨rHi, p⟩, ⟨rLo, q⟩] : List (View.Piece (Elt F) S400x256 .f32)), y ∈ pc.1.set :=
  View.cover_of_tiledL [⟨rHi, p⟩, ⟨rLo, q⟩] S200x256.size (by rfl) y

/-- One whole-shape piece covers the scratch. -/
theorem scratch_cover (p : Vec F S10000x256 .f32) (y : S10000x256.Idx) :
    ∃ pc ∈ ([⟨rS, p⟩] : List (View.Piece (Elt F) S10000x256 .f32)), y ∈ pc.1.set :=
  View.cover_of_tiledL [⟨rS, p⟩] S10000x256.size (by rfl) y

/-! ## The branch on the grid point -/

/-- The body's one branch: taken exactly at the first grid point. -/
abbrev atFirst (i : grid0.Coords) : Prop :=
  (Scalar.cmpi .ne (Scalar.extui (Scalar.cmpi .eq (BitVec.ofNat 32 (i 0).val) 0#32)) 0#32) = 1#1

theorem atFirst_iff : ∀ t : Fin cfg0.N, atFirst (grid0.coords t) ↔ t.val = 0 :=
  (by decide +kernel : ∀ t : Fin grid0.N, atFirst (grid0.coords t) ↔ t.val = 0)

/-! ## The body's two runs -/

set_option maxHeartbeats 1000000 in
/-- At the first grid point: from the four inputs at their contents, the output tile and the scratch at anything, the body
    runs to the scratch at the support matrix and the output tile at `outTile` of it. -/
theorem sound_first (c : Dev nD) (E : Set ℕ) (i : grid0.Coords) (hc : atFirst i)
    (arg1 : Memref sig .tc .vmem S200x10000 .f32) (harg1 : arg1.IsWhole) (arg2 : Memref sig .tc .vmem S200x10000 .f32) (harg2 : arg2.IsWhole)
    (arg3 : Memref sig .tc .vmem S10000x256 .f32) (harg3 : arg3.IsWhole) (arg4 : Memref sig .tc .vmem S256x256 .f32) (harg4 : arg4.IsWhole)
    (arg5 : Memref sig .tc .vmem S400x256 .f32) (harg5 : arg5.IsWhole) (arg6 : Memref sig .tc .vmem S10000x256 .f32) (harg6 : arg6.IsWhole)
    (a b : Vec F S200x10000 .f32) (xf : Vec F S10000x256 .f32) (w : Vec F S256x256 .f32) (K : PUnit → sProp 𝕄) :
    iprop(owns (c : Thread nD τ) arg1 fullShare a ∗ owns (c : Thread nD τ) arg2 fullShare b ∗ owns (c : Thread nD τ) arg3 fullShare xf
        ∗ owns (c : Thread nD τ) arg4 fullShare w ∗ (∃ d, owns (c : Thread nD τ) arg5 fullShare d) ∗ (∃ d, owns (c : Thread nD τ) arg6 fullShare d)
        ∗ (iprop(owns (c : Thread nD τ) arg1 fullShare a ∗ owns (c : Thread nD τ) arg2 fullShare b ∗ owns (c : Thread nD τ) arg3 fullShare xf
            ∗ owns (c : Thread nD τ) arg4 fullShare w ∗ owns (c : Thread nD τ) arg5 fullShare (outTile a b (support xf w))
            ∗ owns (c : Thread nD τ) arg6 fullShare (support xf w)) -∗ K ⟨⟩))
      ⊢ wp frame (wpE (defs₀ (F := F)) Variants.none c none) E (cc0__gcn_body i arg1 harg1 arg2 harg2 arg3 harg3 arg4 harg4 arg5 harg5 arg6 harg6) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (outTile_cover _ _)]
    unfold outTile support
    sl_unfold_words
    simp only [View.readAt_eq_ld, View.readCov_unit_zero (S := S10000x256) _ zero2, View.ld_unit_zero (S := S200x10000) zero2,
      View.ld_unit_zero (S := S10000x256) zero2, View.ld_unit_zero (S := S256x256) zero2]
  · iexists _; isplitr
    swap; · iexact H6
    ipureintro
    sl_unfold_words
    rw [View.read_writes_eq_canon _ _ _ (scratch_cover _), View.canon_unit_zero (S := S10000x256) zero2]
    unfold support
    simp only [View.readAt_eq_ld, View.ld_unit_zero (S := S10000x256) zero2, View.ld_unit_zero (S := S256x256) zero2]

set_option maxHeartbeats 1000000 in
/-- At a later grid point: the scratch is only read, and the output tile ends at `outTile` of what it holds. -/
theorem sound_later (c : Dev nD) (E : Set ℕ) (i : grid0.Coords) (hc : ¬ atFirst i)
    (arg1 : Memref sig .tc .vmem S200x10000 .f32) (harg1 : arg1.IsWhole) (arg2 : Memref sig .tc .vmem S200x10000 .f32) (harg2 : arg2.IsWhole)
    (arg3 : Memref sig .tc .vmem S10000x256 .f32) (harg3 : arg3.IsWhole) (arg4 : Memref sig .tc .vmem S256x256 .f32) (harg4 : arg4.IsWhole)
    (arg5 : Memref sig .tc .vmem S400x256 .f32) (harg5 : arg5.IsWhole) (arg6 : Memref sig .tc .vmem S10000x256 .f32) (harg6 : arg6.IsWhole)
    (a b : Vec F S200x10000 .f32) (xf : Vec F S10000x256 .f32) (w : Vec F S256x256 .f32) (s : Vec F S10000x256 .f32) (K : PUnit → sProp 𝕄) :
    iprop(owns (c : Thread nD τ) arg1 fullShare a ∗ owns (c : Thread nD τ) arg2 fullShare b ∗ owns (c : Thread nD τ) arg3 fullShare xf
        ∗ owns (c : Thread nD τ) arg4 fullShare w ∗ (∃ d, owns (c : Thread nD τ) arg5 fullShare d) ∗ owns (c : Thread nD τ) arg6 fullShare s
        ∗ (iprop(owns (c : Thread nD τ) arg1 fullShare a ∗ owns (c : Thread nD τ) arg2 fullShare b ∗ owns (c : Thread nD τ) arg3 fullShare xf
            ∗ owns (c : Thread nD τ) arg4 fullShare w ∗ owns (c : Thread nD τ) arg5 fullShare (outTile a b s)
            ∗ owns (c : Thread nD τ) arg6 fullShare s) -∗ K ⟨⟩))
      ⊢ wp frame (wpE (defs₀ (F := F)) Variants.none c none) E (cc0__gcn_body i arg1 harg1 arg2 harg2 arg3 harg3 arg4 harg4 arg5 harg5 arg6 harg6) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1 hf2 hf3 hf4 hf6
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (outTile_cover _ _)]
    unfold outTile
    simp only [View.readAt_eq_ld, View.ld_unit_zero (S := S200x10000) zero2, View.ld_unit_zero (S := S10000x256) zero2]
  · iexists f6; isplitr; · ipureintro; rfl
    iexact H6

end Cert.Kernel.Hand

end
-- ==== Proof.Bits.Launch.lean ====
/-
  The run of the graph-convolution program: the proof data of its one pipeline, the body obligation at every grid point,
  and the launch.

  The pipeline has five windows. Windows 0 and 1 both read the adjacency matrix, 200 rows each per grid point (rows
  400 t .. 400 t + 199 and 400 t + 200 .. 400 t + 399): they hold that one array at the two halves of its full share.
  Window 2 is the whole flattened feature matrix (the reshape of the features, written by the one host operation before
  the region), window 3 the whole weight matrix, both fetched once, at the first point. Window 4 is the result, 400 rows
  per point, written back at every point.
  What the body keeps between points is its scratch: anything before the first point, the support matrix (features times
  weights) from then on. So the result tile at point t is `outTile` of the two adjacency tiles at t and the support matrix,
  at every point.
-/
import proofs.«104771_g55241869361592_cont_9to1c4b_774_7_alg».proof.Proof.Bits.Body
import Idealize.ShloMosaic.Lib.Pipeline.Kit
import Idealize.ShloMosaic.Lib.Pipeline.Frame
import Idealize.ShloMosaic.Lib.Pipeline.FrameBody

set_option maxRecDepth 16384

noncomputable section

namespace Cert.Kernel.Hand

open Cert.Kernel Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: one copy of the rounds library's, the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## @main up to the region -/

/-- The core's buffers when the region is entered: after the one host operation, the reshape of the features. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the three arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks and the support matrix -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first grid point. -/
abbrev t₀ : Fin cfg0.N := ⟨0, by decide⟩

/-- The support matrix: the feature tile times the weight tile, as the first point finds them. -/
def supp (c : Dev nD) : Vec F S10000x256 .f32 := support (iblk m c 2 t₀) (iblk m c 3 t₀)

/-- The kernel's scratch, a whole scoped buffer of its own. -/
abbrev scr : Memref sig .tc .vmem S10000x256 .f32 := Memref.whole cc0_scratch0

/-! ## The proof data -/

/-- The arrays as the region finds them; after the body each input's buffer at its block and the result's at `outTile`
    of the adjacency tiles and the support matrix; the scratch at anything before the first point and at the support
    matrix afterwards; the adjacency matrix held at half its share by each of its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile (iblk m c 0 t) (iblk m c 1 t) (supp m c)
  Φ t := if t.val = 0 then iprop(∃ d, owns (c : Thread nD τ) scr fullShare d) else owns (c : Thread nD τ) scr fullShare (supp m c)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outTile (iblk m c 0 t) (iblk m c 1 t) (supp m c) := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
/-- The result's buffer is fresh at every point: it was written back at the point before. -/
theorem before0_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-- The invariant before the first point and after it. -/
theorem Phi_zero (c : Dev nD) (t : Fin (cfg0.N + 1)) (h : t.val = 0) :
    (dats m 0 c).Φ t = iprop(∃ d, owns (c : Thread nD τ) scr fullShare d) := by
  dsimp only [dats]; rw [if_pos h]
theorem Phi_pos (c : Dev nD) (t : Fin (cfg0.N + 1)) (h : t.val ≠ 0) :
    (dats m 0 c).Φ t = owns (c : Thread nD τ) scr fullShare (supp m c) := by
  dsimp only [dats]; rw [if_neg h]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: at the first one it fills the scratch with the support matrix, at a later one it finds it there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4,
    Phi_pos m c t.succ (by simp)]
  by_cases h0 : t.val = 0
  · have hc : atFirst (grid0.coords t) := (atFirst_iff t).mpr h0
    obtain rfl : t = t₀ := Fin.ext h0
    rw [Phi_zero m c _ rfl]
    iintro ⟨HΦ, Ho, ⟨%d0, H0⟩, ⟨%d1, H1⟩, ⟨%d2, H2⟩, ⟨%d3, H3⟩, ⟨%d4, H4⟩⟩
    iapply (sound_first c Set.univ (grid0.coords t₀) hc _ _ _ _ _ _ _ _ _ _ _ _ (iblk m c 0 t₀) (iblk m c 1 t₀) (iblk m c 2 t₀) (iblk m c 3 t₀) _)
    isplitl [H0]; · iexact H0
    isplitl [H1]; · iexact H1
    isplitl [H2]; · iexact H2
    isplitl [H3]; · iexact H3
    isplitl [H4]; · iexists _; iexact H4
    isplitl [HΦ]; · iexact HΦ
    iintro ⟨H0, H1, H2, H3, H4, H6⟩
    isplitl [H6]; · iexact H6
    isplitl [Ho]; · iexact Ho
    isplitl [H0]; · iexact H0
    isplitl [H1]; · iexact H1
    isplitl [H2]; · iexact H2
    isplitl [H3]; · iexact H3
    iexact H4
  · have hc : ¬ atFirst (grid0.coords t) := fun h => h0 ((atFirst_iff t).mp h)
    rw [Phi_pos m c t.castSucc h0]
    iintro ⟨HΦ, Ho, ⟨%d0, H0⟩, ⟨%d1, H1⟩, ⟨%d2, H2⟩, ⟨%d3, H3⟩, ⟨%d4, H4⟩⟩
    iapply (sound_later c Set.univ (grid0.coords t) hc _ _ _ _ _ _ _ _ _ _ _ _ (iblk m c 0 t) (iblk m c 1 t) (iblk m c 2 t) (iblk m c 3 t) (supp m c) _)
    isplitl [H0]; · iexact H0
    isplitl [H1]; · iexact H1
    isplitl [H2]; · iexact H2
    isplitl [H3]; · iexact H3
    isplitl [H4]; · iexists _; iexact H4
    isplitl [HΦ]; · iexact HΦ
    iintro ⟨H0, H1, H2, H3, H4, H6⟩
    isplitl [H6]; · iexact H6
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The rounds library's launch element: every staging cell's owner at round 0 and a duty token for every transfer the
    pipeline issues. -/
def u₀ : UR sig nD τ := initOf (Pipeline.cells cfgs cellOf_inj) (Pipeline.launchToks cfgs cellOf_inj)

/-- The distinct buffers behind the five windows' arrays: the adjacency matrix (windows 0 and 1), the flattened features,
    the weights, the result. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg2) ↦{fullShare} W main_arg2)
          ∗ (((c : Thread nD τ).loc main_call0_v0) ↦{fullShare} W main_call0_v0) ∗ (((c : Thread nD τ).loc main_v0) ↦{fullShare} W main_v0)) := by
  unfold Pipeline.arrBufs
  exact bigSep_eq_bigSepL_of_eq [main_arg1, main_arg2, main_call0_v0, main_v0] (by decide) (by decide) _

/-- How the arrays' full shares are dealt to the windows: the adjacency matrix's by halves to its two windows, every other
    array whole to its one window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  dsimp only
  have halves : (((c : Thread nD τ).loc main_arg1) ↦{fullShare} V m c main_arg1 : sProp 𝕄)
      ⊢ iprop((((c : Thread nD τ).loc main_arg1) ↦{fullShare.left} V m c main_arg1) ∗ (((c : Thread nD τ).loc main_arg1) ↦{fullShare.right} V m c main_arg1)) :=
    (pointsTo_share (PosShare.mem_left_op_right fullShare)).1
  iintro ⟨H1, H2, Hv, Ho⟩
  ihave H1' := halves $$ H1
  icases H1' with ⟨Hl, Hr⟩
  isplitl [Hl]
  · rw [(arr_whole0 0).set_eq_univ]; iexact Hl
  isplitl [Hr]
  · rw [(arr_whole0 1).set_eq_univ]; iexact Hr
  isplitl [Hv]
  · rw [(arr_whole0 2).set_eq_univ]; iexact Hv
  isplitl [H2]
  · rw [(arr_whole0 3).set_eq_univ]; iexact H2
  · rw [(arr_whole0 4).set_eq_univ]; iexact Ho

/-- What the run ends with: every window's array at what the library computes from the proof data after the last
    write-back, and the features (which no window stages) as the region found them. -/
def QC : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ ∀ b ∈ Pipeline.restRefs sig spec0, r.2.mem ((c : Thread nD τ).loc b) = V m c b

-- the launch theorem's implicit arguments are found by unifying its conclusion with this one, which takes unfolding
-- plain definitions in a metavariable's type
set_option backward.isDefEq.respectTransparency.types false in
/-- At the compiled mesh, for any values, from any memory with zero counters: every weakly fair execution of @main on the
    TensorCores terminates, in a state satisfying `QC`. The windows share the adjacency matrix, so the launch is the
    library's for shared arrays: the arrays' shares are dealt by `hsplit`; the scratch passes through the invariant; the
    features bypass the region and are read back at the end. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [scopedRest0_eq, Phi_zero m c 0 rfl]
      simp only [owns_whole]
      iintro ⟨-, H⟩; iexact H)
    (hout := fun c => by
      rw [scopedRest0_eq, Phi_pos m c (Fin.last _) (by decide)]
      simp only [owns_whole]
      iintro H; isplitr; · iempintro
      iexists _; iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- info: 'Cert.Kernel.Hand.run_main' depends on axioms: [propext, Classical.choice, Quot.sound] -/
#guard_msgs in #print axioms run_main

/-! ## The frame -/

/-- The program runs to the end, faults nowhere and leaves its three arguments as they were: the adjacency matrix and
    the weights are inputs of the pipeline, which never writes an input's array; the features bypass it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c)))⟩) (run_main m ρ)

end Cert.Kernel.Hand

end
-- ==== Proof.Ideal.Body.lean ====
/-
  The kernel body of the graph-convolution layer, run once symbolically at an arbitrary grid point.

  At a grid point the body is handed two 200 x 10000 row tiles of the adjacency matrix (`a`, `b`: rows 400 t .. 400 t + 199 and
  400 t + 200 .. 400 t + 399), the flattened features `xf` (10000 x 256) and the weights `w` (256 x 256), a 400 x 256 output
  tile, and a 10000 x 256 scratch that it keeps from one point to the next.
  * At the first point it stores the support matrix `xf · w` into the scratch.
  * At every point it stores `a · S` into the output tile's rows 0 .. 199 and `b · S` into its rows 200 .. 399, where `S` is what
    the scratch then holds.
  So the scratch holds the support matrix after the first point and is only read afterwards: the output tile is the same
  function `outTile a b S` of the two adjacency tiles and the support matrix at every point.
-/
import proofs.«104771_g55241869361592_cont_9to1c4b_774_7_alg».proof.Proof.Gen.KernelIdeal.Launch
import proofs.«104771_g55241869361592_cont_9to1c4b_774_7_alg».proof.Proof.Gen.KernelIdeal.Skeleton
import proofs.«104771_g55241869361592_cont_9to1c4b_774_7_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The rectangles the body reads and writes through -/

/-- The whole scratch / the whole feature tile. -/
abbrev rS : Rect S10000x256 := Rect.unit (s := S10000x256) ![0, 0] S10000x256.size inb_S10000x256_S10000x256_0_0
/-- The whole weight tile. -/
abbrev rW : Rect S256x256 := Rect.unit (s := S256x256) ![0, 0] S256x256.size inb_S256x256_S256x256_0_0
/-- A whole adjacency row tile. -/
abbrev rA : Rect S200x10000 := Rect.unit (s := S200x10000) ![0, 0] S200x10000.size inb_S200x10000_S200x10000_0_0
/-- Rows 0 .. 199 of the output tile. -/
abbrev rLo : Rect S400x256 := Rect.unit (s := S400x256) ![0, 0] S200x256.size inb_S400x256_S200x256_0_0
/-- Rows 200 .. 399 of the output tile. -/
abbrev rHi : Rect S400x256 := Rect.unit (s := S400x256) ![200, 0] S200x256.size inb_S400x256_S200x256_200_0

theorem zero2 : (![0, 0] : Fin 2 → Nat) = fun _ => 0 := funext fun a => by fin_cases a <;> rfl

/-! ## What the body computes -/

/-- The support matrix: the features times the weights. -/
def support (xf : Vec F S10000x256 .f32) (w : Vec F S256x256 .f32) : Vec F S10000x256 .f32 := k0_pay1 xf w

/-- The output tile: rows 0 .. 199 are the first adjacency tile times the support matrix, rows 200 .. 399 the second
    adjacency tile times it (the later store listed first). -/
def outTile (a b : Vec F S200x10000 .f32) (s : Vec F S10000x256 .f32) : Vec F S400x256 .f32 :=
  View.canon [⟨rHi, k0_pay3 b s⟩, ⟨rLo, k0_pay2 a s⟩]

/-- The two half tiles cover the output tile. -/
theorem outTile_cover (p q : Vec F S200x256 .f32) (y : S400x256.Idx) :
    ∃ pc ∈ ([⟨rHi, p⟩, ⟨rLo, q⟩] : List (View.Piece (Elt F) S400x256 .f32)), y ∈ pc.1.set :=
  View.cover_of_tiledL [⟨rHi, p⟩, ⟨rLo, q⟩] S200x256.size (by rfl) y

/-- One whole-shape piece covers the scratch. -/
theorem scratch_cover (p : Vec F S10000x256 .f32) (y : S10000x256.Idx) :
    ∃ pc ∈ ([⟨rS, p⟩] : List (View.Piece (Elt F) S10000x256 .f32)), y ∈ pc.1.set :=
  View.cover_of_tiledL [⟨rS, p⟩] S10000x256.size (by rfl) y

/-! ## The branch on the grid point -/

/-- The body's one branch: taken exactly at the first grid point. -/
abbrev atFirst (i : grid0.Coords) : Prop :=
  (Scalar.cmpi .ne (Scalar.extui (Scalar.cmpi .eq (BitVec.ofNat 32 (i 0).val) 0#32)) 0#32) = 1#1

theorem atFirst_iff : ∀ t : Fin cfg0.N, atFirst (grid0.coords t) ↔ t.val = 0 :=
  (by decide +kernel : ∀ t : Fin grid0.N, atFirst (grid0.coords t) ↔ t.val = 0)

/-! ## The body's two runs -/

set_option maxHeartbeats 1000000 in
/-- At the first grid point: from the four inputs at their contents, the output tile and the scratch at anything, the body
    runs to the scratch at the support matrix and the output tile at `outTile` of it. -/
theorem sound_first (c : Dev nD) (E : Set ℕ) (i : grid0.Coords) (hc : atFirst i)
    (arg1 : Memref sig .tc .vmem S200x10000 .f32) (harg1 : arg1.IsWhole) (arg2 : Memref sig .tc .vmem S200x10000 .f32) (harg2 : arg2.IsWhole)
    (arg3 : Memref sig .tc .vmem S10000x256 .f32) (harg3 : arg3.IsWhole) (arg4 : Memref sig .tc .vmem S256x256 .f32) (harg4 : arg4.IsWhole)
    (arg5 : Memref sig .tc .vmem S400x256 .f32) (harg5 : arg5.IsWhole) (arg6 : Memref sig .tc .vmem S10000x256 .f32) (harg6 : arg6.IsWhole)
    (a b : Vec F S200x10000 .f32) (xf : Vec F S10000x256 .f32) (w : Vec F S256x256 .f32) (K : PUnit → sProp 𝕄) :
    iprop(owns (c : Thread nD τ) arg1 fullShare a ∗ owns (c : Thread nD τ) arg2 fullShare b ∗ owns (c : Thread nD τ) arg3 fullShare xf
        ∗ owns (c : Thread nD τ) arg4 fullShare w ∗ (∃ d, owns (c : Thread nD τ) arg5 fullShare d) ∗ (∃ d, owns (c : Thread nD τ) arg6 fullShare d)
        ∗ (iprop(owns (c : Thread nD τ) arg1 fullShare a ∗ owns (c : Thread nD τ) arg2 fullShare b ∗ owns (c : Thread nD τ) arg3 fullShare xf
            ∗ owns (c : Thread nD τ) arg4 fullShare w ∗ owns (c : Thread nD τ) arg5 fullShare (outTile a b (support xf w))
            ∗ owns (c : Thread nD τ) arg6 fullShare (support xf w)) -∗ K ⟨⟩))
      ⊢ wp frame (wpE (defs₀ (F := F)) Variants.none c none) E (cc0__gcn_body i arg1 harg1 arg2 harg2 arg3 harg3 arg4 harg4 arg5 harg5 arg6 harg6) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%d5, %f5, -, H5⟩, ⟨%d6, %f6, -, H6⟩, Hk⟩
  subst hf1 hf2 hf3 hf4
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (outTile_cover _ _)]
    unfold outTile support
    sl_unfold_words
    simp only [View.readAt_eq_ld, View.readCov_unit_zero (S := S10000x256) _ zero2, View.ld_unit_zero (S := S200x10000) zero2,
      View.ld_unit_zero (S := S10000x256) zero2, View.ld_unit_zero (S := S256x256) zero2]
  · iexists _; isplitr
    swap; · iexact H6
    ipureintro
    sl_unfold_words
    rw [View.read_writes_eq_canon _ _ _ (scratch_cover _), View.canon_unit_zero (S := S10000x256) zero2]
    unfold support
    simp only [View.readAt_eq_ld, View.ld_unit_zero (S := S10000x256) zero2, View.ld_unit_zero (S := S256x256) zero2]

set_option maxHeartbeats 1000000 in
/-- At a later grid point: the scratch is only read, and the output tile ends at `outTile` of what it holds. -/
theorem sound_later (c : Dev nD) (E : Set ℕ) (i : grid0.Coords) (hc : ¬ atFirst i)
    (arg1 : Memref sig .tc .vmem S200x10000 .f32) (harg1 : arg1.IsWhole) (arg2 : Memref sig .tc .vmem S200x10000 .f32) (harg2 : arg2.IsWhole)
    (arg3 : Memref sig .tc .vmem S10000x256 .f32) (harg3 : arg3.IsWhole) (arg4 : Memref sig .tc .vmem S256x256 .f32) (harg4 : arg4.IsWhole)
    (arg5 : Memref sig .tc .vmem S400x256 .f32) (harg5 : arg5.IsWhole) (arg6 : Memref sig .tc .vmem S10000x256 .f32) (harg6 : arg6.IsWhole)
    (a b : Vec F S200x10000 .f32) (xf : Vec F S10000x256 .f32) (w : Vec F S256x256 .f32) (s : Vec F S10000x256 .f32) (K : PUnit → sProp 𝕄) :
    iprop(owns (c : Thread nD τ) arg1 fullShare a ∗ owns (c : Thread nD τ) arg2 fullShare b ∗ owns (c : Thread nD τ) arg3 fullShare xf
        ∗ owns (c : Thread nD τ) arg4 fullShare w ∗ (∃ d, owns (c : Thread nD τ) arg5 fullShare d) ∗ owns (c : Thread nD τ) arg6 fullShare s
        ∗ (iprop(owns (c : Thread nD τ) arg1 fullShare a ∗ owns (c : Thread nD τ) arg2 fullShare b ∗ owns (c : Thread nD τ) arg3 fullShare xf
            ∗ owns (c : Thread nD τ) arg4 fullShare w ∗ owns (c : Thread nD τ) arg5 fullShare (outTile a b s)
            ∗ owns (c : Thread nD τ) arg6 fullShare s) -∗ K ⟨⟩))
      ⊢ wp frame (wpE (defs₀ (F := F)) Variants.none c none) E (cc0__gcn_body i arg1 harg1 arg2 harg2 arg3 harg3 arg4 harg4 arg5 harg5 arg6 harg6) K := by
  simp only [cc0__gcn_body_eq_skeleton]; unfold cc0__gcn_body_skel
  unfold owns
  iintro ⟨⟨%f1, %hf1, H1⟩, ⟨%f2, %hf2, H2⟩, ⟨%f3, %hf3, H3⟩, ⟨%f4, %hf4, H4⟩, ⟨%d5, %f5, -, H5⟩, ⟨%f6, %hf6, H6⟩, Hk⟩
  subst hf1 hf2 hf3 hf4 hf6
  sl_exec (disch := exact hc)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [View.read_writes_eq_canon _ _ _ (outTile_cover _ _)]
    unfold outTile
    simp only [View.readAt_eq_ld, View.ld_unit_zero (S := S200x10000) zero2, View.ld_unit_zero (S := S10000x256) zero2]
  · iexists f6; isplitr; · ipureintro; rfl
    iexact H6

end Cert.KernelIdeal.Hand

end
-- ==== Proof.Ideal.Launch.lean ====
/-
  The run of the graph-convolution program: the proof data of its one pipeline, the body obligation at every grid point,
  and the launch.

  The pipeline has five windows. Windows 0 and 1 both read the adjacency matrix, 200 rows each per grid point (rows
  400 t .. 400 t + 199 and 400 t + 200 .. 400 t + 399): they hold that one array at the two halves of its full share.
  Window 2 is the whole flattened feature matrix (the reshape of the features, written by the one host operation before
  the region), window 3 the whole weight matrix, both fetched once, at the first point. Window 4 is the result, 400 rows
  per point, written back at every point.
  What the body keeps between points is its scratch: anything before the first point, the support matrix (features times
  weights) from then on. So the result tile at point t is `outTile` of the two adjacency tiles at t and the support matrix,
  at every point.
-/
import proofs.«104771_g55241869361592_cont_9to1c4b_774_7_alg».proof.Proof.Ideal.Body
import Idealize.ShloMosaic.Lib.Pipeline.Kit
import Idealize.ShloMosaic.Lib.Pipeline.Frame
import Idealize.ShloMosaic.Lib.Pipeline.FrameBody

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: one copy of the rounds library's, the pipeline's. -/
abbrev EP : Emb (UR sig nD τ) (MT nD τ sig Unit (Elt F) ℕ (UR sig nD τ) ℕ) := emb₁

variable (m : (ℓ : Loc nD τ sig) → Buf (Elt F) ℓ) (ρ : Dev nD → PrngReg)

/-! ## @main up to the region -/

/-- The core's buffers when the region is entered: after the one host operation, the reshape of the features. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the reshape, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The reshape writes none of the three arguments. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))

/-! ## The windows' blocks and the support matrix -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first grid point. -/
abbrev t₀ : Fin cfg0.N := ⟨0, by decide⟩

/-- The support matrix: the feature tile times the weight tile, as the first point finds them. -/
def supp (c : Dev nD) : Vec F S10000x256 .f32 := support (iblk m c 2 t₀) (iblk m c 3 t₀)

/-- The kernel's scratch, a whole scoped buffer of its own. -/
abbrev scr : Memref sig .tc .vmem S10000x256 .f32 := Memref.whole cc0_scratch0

/-! ## The proof data -/

/-- The arrays as the region finds them; after the body each input's buffer at its block and the result's at `outTile`
    of the adjacency tiles and the support matrix; the scratch at anything before the first point and at the support
    matrix afterwards; the adjacency matrix held at half its share by each of its two windows; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outTile (iblk m c 0 t) (iblk m c 1 t) (supp m c)
  Φ t := if t.val = 0 then iprop(∃ d, owns (c : Thread nD τ) scr fullShare d) else owns (c : Thread nD τ) scr fullShare (supp m c)
  q w := match w with
    | ⟨0, _⟩ => fullShare.left
    | ⟨1, _⟩ => fullShare.right
    | ⟨2, _⟩ => fullShare
    | ⟨3, _⟩ => fullShare
    | ⟨4, _⟩ => fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = outTile (iblk m c 0 t) (iblk m c 1 t) (supp m c) := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
/-- The result's buffer is fresh at every point: it was written back at the point before. -/
theorem before0_4 (c : Dev nD) (t : Fin cfg0.N) (d) : (dats m 0 c).before 4 t d = d :=
  (dats m 0 c).before_out_reset 4 rfl t
    (by by_cases h : t.val = 0
        · exact .inl h
        · exact .inr ⟨h, flush0_4 _⟩) d

/-- The invariant before the first point and after it. -/
theorem Phi_zero (c : Dev nD) (t : Fin (cfg0.N + 1)) (h : t.val = 0) :
    (dats m 0 c).Φ t = iprop(∃ d, owns (c : Thread nD τ) scr fullShare d) := by
  dsimp only [dats]; rw [if_pos h]
theorem Phi_pos (c : Dev nD) (t : Fin (cfg0.N + 1)) (h : t.val ≠ 0) :
    (dats m 0 c).Φ t = owns (c : Thread nD τ) scr fullShare (supp m c) := by
  dsimp only [dats]; rw [if_neg h]

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: at the first one it fills the scratch with the support matrix, at a later one it finds it there. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4,
    Phi_pos m c t.succ (by simp)]
  by_cases h0 : t.val = 0
  · have hc : atFirst (grid0.coords t) := (atFirst_iff t).mpr h0
    obtain rfl : t = t₀ := Fin.ext h0
    rw [Phi_zero m c _ rfl]
    iintro ⟨HΦ, Ho, ⟨%d0, H0⟩, ⟨%d1, H1⟩, ⟨%d2, H2⟩, ⟨%d3, H3⟩, ⟨%d4, H4⟩⟩
    iapply (sound_first c Set.univ (grid0.coords t₀) hc _ _ _ _ _ _ _ _ _ _ _ _ (iblk m c 0 t₀) (iblk m c 1 t₀) (iblk m c 2 t₀) (iblk m c 3 t₀) _)
    isplitl [H0]; · iexact H0
    isplitl [H1]; · iexact H1
    isplitl [H2]; · iexact H2
    isplitl [H3]; · iexact H3
    isplitl [H4]; · iexists _; iexact H4
    isplitl [HΦ]; · iexact HΦ
    iintro ⟨H0, H1, H2, H3, H4, H6⟩
    isplitl [H6]; · iexact H6
    isplitl [Ho]; · iexact Ho
    isplitl [H0]; · iexact H0
    isplitl [H1]; · iexact H1
    isplitl [H2]; · iexact H2
    isplitl [H3]; · iexact H3
    iexact H4
  · have hc : ¬ atFirst (grid0.coords t) := fun h => h0 ((atFirst_iff t).mp h)
    rw [Phi_pos m c t.castSucc h0]
    iintro ⟨HΦ, Ho, ⟨%d0, H0⟩, ⟨%d1, H1⟩, ⟨%d2, H2⟩, ⟨%d3, H3⟩, ⟨%d4, H4⟩⟩
    iapply (sound_later c Set.univ (grid0.coords t) hc _ _ _ _ _ _ _ _ _ _ _ _ (iblk m c 0 t) (iblk m c 1 t) (iblk m c 2 t) (iblk m c 3 t) (supp m c) _)
    isplitl [H0]; · iexact H0
    isplitl [H1]; · iexact H1
    isplitl [H2]; · iexact H2
    isplitl [H3]; · iexact H3
    isplitl [H4]; · iexists _; iexact H4
    isplitl [HΦ]; · iexact HΦ
    iintro ⟨H0, H1, H2, H3, H4, H6⟩
    isplitl [H6]; · iexact H6
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The launch -/

/-- The rounds library's launch element: every staging cell's owner at round 0 and a duty token for every transfer the
    pipeline issues. -/
def u₀ : UR sig nD τ := initOf (Pipeline.cells cfgs cellOf_inj) (Pipeline.launchToks cfgs cellOf_inj)

/-- The distinct buffers behind the five windows' arrays: the adjacency matrix (windows 0 and 1), the flattened features,
    the weights, the result. -/
theorem arrBufs_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg2) ↦{fullShare} W main_arg2)
          ∗ (((c : Thread nD τ).loc main_call0_v0) ↦{fullShare} W main_call0_v0) ∗ (((c : Thread nD τ).loc main_v0) ↦{fullShare} W main_v0)) := by
  unfold Pipeline.arrBufs
  exact bigSep_eq_bigSepL_of_eq [main_arg1, main_arg2, main_call0_v0, main_v0] (by decide) (by decide) _

/-- How the arrays' full shares are dealt to the windows: the adjacency matrix's by halves to its two windows, every other
    array whole to its one window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrBufs_eq]
  unfold Dat.arrays
  rw [bigSep_W0]
  dsimp only
  have halves : (((c : Thread nD τ).loc main_arg1) ↦{fullShare} V m c main_arg1 : sProp 𝕄)
      ⊢ iprop((((c : Thread nD τ).loc main_arg1) ↦{fullShare.left} V m c main_arg1) ∗ (((c : Thread nD τ).loc main_arg1) ↦{fullShare.right} V m c main_arg1)) :=
    (pointsTo_share (PosShare.mem_left_op_right fullShare)).1
  iintro ⟨H1, H2, Hv, Ho⟩
  ihave H1' := halves $$ H1
  icases H1' with ⟨Hl, Hr⟩
  isplitl [Hl]
  · rw [(arr_whole0 0).set_eq_univ]; iexact Hl
  isplitl [Hr]
  · rw [(arr_whole0 1).set_eq_univ]; iexact Hr
  isplitl [Hv]
  · rw [(arr_whole0 2).set_eq_univ]; iexact Hv
  isplitl [H2]
  · rw [(arr_whole0 3).set_eq_univ]; iexact H2
  · rw [(arr_whole0 4).set_eq_univ]; iexact Ho

/-- What the run ends with: every window's array at what the library computes from the proof data after the last
    write-back, and the features (which no window stages) as the region found them. -/
def QC : PUnit × MemSt nD τ sig (Elt F) → Prop := fun r =>
  ∀ c : Dev nD, (∀ w : Fin cfg0.W, r.2.mem ((cfg0.win w).arr.view.loc (c : Thread nD τ)) = (dats m 0 c).arrAt w cfg0.N)
    ∧ ∀ b ∈ Pipeline.restRefs sig spec0, r.2.mem ((c : Thread nD τ).loc b) = V m c b

-- the launch theorem's implicit arguments are found by unifying its conclusion with this one, which takes unfolding
-- plain definitions in a metavariable's type
set_option backward.isDefEq.respectTransparency.types false in
/-- At the compiled mesh, for any values, from any memory with zero counters: every weakly fair execution of @main on the
    TensorCores terminates, in a state satisfying `QC`. The windows share the adjacency matrix, so the launch is the
    library's for shared arrays: the arrays' shares are dealt by `hsplit`; the scratch passes through the invariant; the
    features bypass the region and are read back at the end. -/
theorem run_main : θ_run defs (onTc (τ := τ) (main (F := F))) (s₀ m ρ) (QC m) :=
  Pipeline.θ_run_region_noSem_shared cfgs (dats m) () cellOf_inj (0 : Fin 1) winFacts₀0 EP defs₀ Variants.none m ρ main
    (hbody := fun c => (body_obligation m c).loose)
    (hne := block_pos0) (harr := arr_whole0) (hstage := stage_whole0)
    (howed := fun _ _ => rfl)
    (u₀ := u₀) (hu₀ := BI.Entails.refl _)
    (V := V m)
    (hmain := hmain m Variants.none)
    (hsplit := hsplit m)
    (X := fun _ => iprop(emp)) (Y := fun _ => iprop(emp))
    (Z := fun c => Pipeline.unscopedRest (Ix := Unit) (Name := ℕ) (U := UR sig nD τ) (Lvl := ℕ) spec0 c (V m c))
    (hX := fun c => by
      iintro H; isplitr; · iempintro
      iexact H)
    (hin := fun c => by
      rw [scopedRest0_eq, Phi_zero m c 0 rfl]
      simp only [owns_whole]
      iintro ⟨-, H⟩; iexact H)
    (hout := fun c => by
      rw [scopedRest0_eq, Phi_pos m c (Fin.last _) (by decide)]
      simp only [owns_whole]
      iintro H; isplitr; · iempintro
      iexists _; iexact H)
    (QY := fun c s => ∀ b ∈ Pipeline.restRefs sig spec0, s.mem ((c : Thread nD τ).loc b) = V m c b)
    (hY := fun c s' => by
      iintro ⟨-, HU, HSI⟩
      unfold Pipeline.unscopedRest
      imodintro
      iapply (pointsTo_read_all (Pipeline.restRefs sig spec0) (fun b => (c : Thread nD τ).loc b) (V m c) s')
      isplitl [HU] <;> iassumption)
    (hQ := fun s h c => ⟨(h c).1, (h c).2⟩)

/-- info: 'Cert.KernelIdeal.Hand.run_main' depends on axioms: [propext, Classical.choice, Quot.sound] -/
#guard_msgs in #print axioms run_main

/-! ## The frame -/

/-- The program runs to the end, faults nowhere and leaves its three arguments as they were: the adjacency matrix and
    the weights are inputs of the pipeline, which never writes an input's array; the features bypass it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c)))⟩) (run_main m ρ)

end Cert.KernelIdeal.Hand

end
-- ==== Proof.LibAffineRows.lean ====
/-
  A dense layer read row by row, at the ideal values.

  A kernel that tiles the rows of a matrix `X` computes, on each tile `xb`, the product `xb · w` by a matrix unit
  (operands narrowed to bf16, accumulated into zeros) and adds a bias row kept as a `[1, M]` block; the plain program
  computes `X · w` by one `dot_general` and adds the bias vector `[M]` broadcast over the rows. Over the extended reals
  narrowing is the identity and both products are the textbook sum over the contracted index, so row `r` of the tile's
  result is row `n r` of the whole result as soon as row `r` of the tile is row `n r` of `X`
  (`affine_rows`), and the same after a `tanh` (`tanh_affine_rows`). Nothing here depends on the sizes.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib

open Idealize.ShloMosaic Idealize.ShloMosaic.ValueIdx

/-- The dimension numbers `d` describe the plain product of an `[R, K]` by a `[K, M]` matrix: one contracted index of
    extent `K`, which is the left operand's column and the right operand's row; the result's row is the left operand's
    row and its column the right operand's column. -/
structure PlainDot {R K M : ℕ} (d : DotDims ⟨2, ![R, K]⟩ ⟨2, ![K, M]⟩ ⟨2, ![R, M]⟩) : Prop where
  rank : d.contr.rank = 1
  size : d.contr.size ⟨0, by omega⟩ = K
  l0 : ∀ (i : (⟨2, ![R, M]⟩ : Shape).Idx) (q : d.contr.Idx), (d.lhsIdx i q 0).val = (i 0).val
  l1 : ∀ (i : (⟨2, ![R, M]⟩ : Shape).Idx) (q : d.contr.Idx), (d.lhsIdx i q 1).val = (q ⟨0, by omega⟩).val
  r0 : ∀ (i : (⟨2, ![R, M]⟩ : Shape).Idx) (q : d.contr.Idx), (d.rhsIdx i q 0).val = (q ⟨0, by omega⟩).val
  r1 : ∀ (i : (⟨2, ![R, M]⟩ : Shape).Idx) (q : d.contr.Idx), (d.rhsIdx i q 1).val = (i 1).val

variable {R K M : ℕ}

/-- The sum over the record's contraction index is the sum over `k < K` of `x (r, k) · w (k, c)`. -/
theorem PlainDot.sum_eq {d : DotDims ⟨2, ![R, K]⟩ ⟨2, ![K, M]⟩ ⟨2, ![R, M]⟩} (h : PlainDot d)
    (x : (⟨2, ![R, K]⟩ : Shape).Idx → EReal) (w : (⟨2, ![K, M]⟩ : Shape).Idx → EReal) (r : Fin R) (c : Fin M) :
    ∑ k : d.contr.Idx, x (d.lhsIdx (ix2 r c) k) * w (d.rhsIdx (ix2 r c) k) = ∑ k : Fin K, x (ix2 r k) * w (ix2 k c) := by
  rw [← Equiv.sum_comp (contrEquiv1 d K h.rank h.size).symm]
  refine Finset.sum_congr rfl fun k _ => ?_
  have hk := contrEquiv1_symm_val d K h.rank h.size k
  have el : d.lhsIdx (ix2 r c) ((contrEquiv1 d K h.rank h.size).symm k) = ix2 r k := funext fun a => Fin.ext (by
    match a with
    | ⟨0, _⟩ => exact h.l0 _ _
    | ⟨1, _⟩ => exact (h.l1 _ _).trans hk)
  have er : d.rhsIdx (ix2 r c) ((contrEquiv1 d K h.rank h.size).symm k) = ix2 k c := funext fun a => Fin.ext (by
    match a with
    | ⟨0, _⟩ => exact (h.r0 _ _).trans hk
    | ⟨1, _⟩ => exact h.r1 _ _)
  rw [el, er]

/-- A matrix unit's product of two narrowed operands into zeros, at `(r, c)`: the textbook sum. -/
theorem matmul_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (ht : FTy.bits .bf16 < FTy.bits .f32)
    (r : Fin R) (c : Fin M) :
    matmul d none (truncf .bf16 x ht) (truncf .bf16 w ht) (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- The host's `dot_general` at `(r, c)`: the same sum. -/
theorem dotGeneral_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    Host.dotGeneral d none x w (ix2 r c) = ∑ k : Fin K, x (ix2 r k) * w (ix2 k c) := by
  simp only [Host.dotGeneral]
  rw [Ideal.dotGeneral_apply]
  exact h.sum_eq (fun i => x i) (fun i => w i) r c

/-- A bias vector `[M]` made a row `[1, M]` and then broadcast over `N` rows reads, at `(n, q)`, the vector at `q`. -/
theorem bias_rows_apply {N : ℕ} (b : FVec Ideal ⟨1, ![M]⟩ .f32)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (n : Fin N) (q : Fin M) :
    broadcastInDim ⟨2, ![N, M]⟩ ![0, 1] h2 (broadcastInDim ⟨2, ![1, M]⟩ ![1] h1 b) (ix2 n q) = b (ix1 q) := by
  rw [broadcastInDim_apply _ h2 _ (ix2 n q) (ix2 (0 : Fin 1) q) (fun a => by
    match a with
    | ⟨0, _⟩ => show (0 : ℕ) = if (1 : ℕ) = 1 then 0 else n.val; rw [if_pos rfl]
    | ⟨1, _⟩ => show q.val = if M = 1 then 0 else q.val; split <;> [(have := q.isLt; omega); rfl])]
  exact broadcastInDim_apply _ h1 b (ix2 (0 : Fin 1) q) (ix1 q) (fun a => by
    match a with
    | ⟨0, _⟩ => show q.val = if M = 1 then 0 else q.val; split <;> [(have := q.isLt; omega); rfl])

/-- ROW BY ROW: where row `r` of the tile `xb` is row `n r` of `X` and the bias block's row is the bias vector, the
    tile's `xb · w + bias` at `(r, q)` is the whole `X · w + bias` at `(n r, q)`. -/
theorem affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    addf (matmul dB none (truncf .bf16 xb ht) (truncf .bf16 w ht) (constant ⟨2, ![R, M]⟩ .f32 0x00000000#32))
        (broadcastTo ⟨2, ![R, M]⟩ (shapeCast ⟨2, ![1, M]⟩ b2 hsc) hbc) (ix2 r q)
      = addf (Host.dotGeneral dW none X w) (broadcastInDim ⟨2, ![N, M]⟩ ![0, 1] h2 (broadcastInDim ⟨2, ![1, M]⟩ ![1] h1 b)) (ix2 (n r) q) := by
  rw [addf_apply, addf_apply, matmul_zero_apply hB, dotGeneral_apply hW, bias_rows_apply, broadcastTo_1b_ab_apply,
    shapeCast_self, hb]
  exact congrArg (· + b (ix1 q)) (Finset.sum_congr rfl fun k _ => by rw [hx])

/-- The same after the hyperbolic tangent, the kernel's and the host's being one function of an extended real. -/
theorem tanh_affine_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (b2 : FVec Ideal ⟨2, ![1, M]⟩ .f32) (b : FVec Ideal ⟨1, ![M]⟩ .f32) (n : Fin R → Fin N)
    (hx : ∀ r k, xb (ix2 r k) = X (ix2 (n r) k)) (hb : ∀ q : Fin M, b2 (ix2 (0 : Fin 1) q) = b (ix1 q))
    (ht : FTy.bits .bf16 < FTy.bits .f32) (hsc : (⟨2, ![1, M]⟩ : Shape).ShapeCasts ⟨2, ![1, M]⟩)
    (hbc : (⟨2, ![1, M]⟩ : Shape).Broadcasts ⟨2, ![R, M]⟩)
    (h1 : (⟨1, ![M]⟩ : Shape).BroadcastsInDim ⟨2, ![1, M]⟩ (![1] : Fin 1 → Fin 2))
    (h2 : (⟨2, ![1, M]⟩ : Shape).BroadcastsInDim ⟨2, ![N, M]⟩ (![0, 1] : Fin 2 → Fin 2)) (r : Fin R) (q : Fin M) :
    tanh (addf (matmul dB none (truncf .bf16 xb ht) (truncf .bf16 w ht) (constant ⟨2, ![R, M]⟩ .f32 0x00000000#32))
        (broadcastTo ⟨2, ![R, M]⟩ (shapeCast ⟨2, ![1, M]⟩ b2 hsc) hbc)) (ix2 r q)
      = Host.tanh (addf (Host.dotGeneral dW none X w)
          (broadcastInDim ⟨2, ![N, M]⟩ ![0, 1] h2 (broadcastInDim ⟨2, ![1, M]⟩ ![1] h1 b))) (ix2 (n r) q) :=
  congrArg Ideal.tanh (affine_rows hB hW xb X w b2 b n hx hb ht hsc hbc h1 h2 r q)

end Cert.Lib

end
-- ==== Proof.LibPlainRows.lean ====
/-
  A matrix product computed tile by tile over its rows, at the ideal values.

  A kernel that tiles the rows of a matrix `X` computes on each tile `xb` the product `xb · w` by a matrix unit, the operands
  taken as they are and accumulated into zeros; the plain program computes `X · w` by one `dot_general`. Over the extended
  reals both are the textbook sum over the contracted index, so row `r` of the tile's product is row `n r` of the whole
  product as soon as row `r` of the tile is row `n r` of `X` (`matmul_rows`); and the matrix unit's product of two whole
  matrices is the host's (`matmul_eq_dotGeneral`). Nothing here depends on the sizes.
-/
import proofs.«104771_g55241869361592_cont_9to1c4b_774_7_alg».proof.Proof.LibAffineRows

noncomputable section

namespace Cert.Lib

open Idealize.ShloMosaic Idealize.ShloMosaic.ValueIdx

variable {R K M : ℕ}

/-- A matrix unit's product of two operands into zeros, at `(r, c)`: the textbook sum. -/
theorem matmul_f32_zero_apply {d : DotDims ⟨2, ![R, K]⟩ ⟨2, ![K, M]⟩ ⟨2, ![R, M]⟩} (h : PlainDot d)
    (x : FVec Ideal ⟨2, ![R, K]⟩ .f32) (w : FVec Ideal ⟨2, ![K, M]⟩ .f32) (r : Fin R) (c : Fin M) :
    matmul d none x w (constant ⟨2, ![R, M]⟩ .f32 0x00000000#32) (ix2 r c)
      = ∑ k : Fin K, x (ix2 r k) * w (ix2 k c) := by
  simp only [matmul]
  rw [Ideal.matmul_constant_zero_apply]
  exact h.sum_eq (fun i => x i) (fun i => w i) r c

/-- ROW BY ROW: where row `r` of the tile `xb` is row `n r` of `X`, the tile's product `xb · w` at `(r, q)` is the whole
    product `X · w` at `(n r, q)`. -/
theorem matmul_rows {N : ℕ}
    {dB : DotDims ⟨2, ![R, K]⟩ ⟨2, ![K, M]⟩ ⟨2, ![R, M]⟩} (hB : PlainDot dB)
    {dW : DotDims ⟨2, ![N, K]⟩ ⟨2, ![K, M]⟩ ⟨2, ![N, M]⟩} (hW : PlainDot dW)
    (xb : FVec Ideal ⟨2, ![R, K]⟩ .f32) (X : FVec Ideal ⟨2, ![N, K]⟩ .f32) (w : FVec Ideal ⟨2, ![K, M]⟩ .f32)
    (n : Fin R → Fin N) (hx : ∀ r k, xb (ix2 r k) = X (ix2 (n r) k)) (r : Fin R) (q : Fin M) :
    matmul dB none xb w (constant ⟨2, ![R, M]⟩ .f32 0x00000000#32) (ix2 r q) = Host.dotGeneral dW none X w (ix2 (n r) q) := by
  rw [matmul_f32_zero_apply hB, dotGeneral_apply hW]
  exact Finset.sum_congr rfl fun k _ => by rw [hx]

/-- The matrix unit's product of two whole matrices into zeros is the host's `dot_general` of them. -/
theorem matmul_eq_dotGeneral
    {d : DotDims ⟨2, ![R, K]⟩ ⟨2, ![K, M]⟩ ⟨2, ![R, M]⟩} (h : PlainDot d)
    {d' : DotDims ⟨2, ![R, K]⟩ ⟨2, ![K, M]⟩ ⟨2, ![R, M]⟩} (h' : PlainDot d')
    (x : FVec Ideal ⟨2, ![R, K]⟩ .f32) (w : FVec Ideal ⟨2, ![K, M]⟩ .f32) :
    matmul d none x w (constant ⟨2, ![R, M]⟩ .f32 0x00000000#32) = Host.dotGeneral d' none x w := by
  funext i
  obtain ⟨r, c, rfl⟩ : ∃ (r : Fin R) (c : Fin M), i = ix2 r c := ⟨i 0, i 1, eq_ix2 i⟩
  rw [matmul_f32_zero_apply h, dotGeneral_apply h']

end Cert.Lib

end
-- ==== Proof.Ideal.Value.lean ====
/-
  The result array of the graph-convolution kernel at the ideal values, as one function of the argument arrays.

  At the ideal values a matrix unit's product into zeros is the textbook sum over the contracted index, so:
  * the support matrix the first grid point leaves in the scratch is the host's product of the flattened features and the
    weights (`supp_eq`);
  * at grid point t the first adjacency tile is rows 400 t .. 400 t + 199 of the adjacency matrix and the second rows
    400 t + 200 .. 400 t + 399 (`adjLo_apply`, `adjHi_apply`), so row p of either half of the result tile is row 400 t + p
    (or 400 t + 200 + p) of the host's product of the whole adjacency matrix and the support matrix: the result tile is that
    product read through the result window's block at t (`flushed_eq`);
  * the 25 blocks of 400 rows cover the 10000 rows, so the result array ends holding that product (`final_out`).
-/
import proofs.«104771_g55241869361592_cont_9to1c4b_774_7_alg».proof.Proof.Ideal.Launch
import proofs.«104771_g55241869361592_cont_9to1c4b_774_7_alg».proof.Proof.LibPlainRows
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.Hand

open Cert.KernelIdeal Cert.KernelIdeal.Gen

open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The kernel's two dimension records are plain matrix products -/

theorem sup_l0 (i : S10000x256.Idx) (q : dot_S10000x256_S256x256_S10000x256_1_0_0_1_n_n.contr.Idx) :
    (dot_S10000x256_S256x256_S10000x256_1_0_0_1_n_n.lhsIdx i q 0).val = (i 0).val := by
  unfold DotDims.lhsIdx
  rw [dif_neg (show ¬(0 : Fin S10000x256.rank) ∈ dot_S10000x256_S256x256_S10000x256_1_0_0_1_n_n.lhsBatch by decide), dif_pos (show (0 : Fin S10000x256.rank) ∈ dot_S10000x256_S256x256_S10000x256_1_0_0_1_n_n.lhsNonContracting by decide)]
  rfl
theorem sup_l1 (i : S10000x256.Idx) (q : dot_S10000x256_S256x256_S10000x256_1_0_0_1_n_n.contr.Idx) :
    (dot_S10000x256_S256x256_S10000x256_1_0_0_1_n_n.lhsIdx i q 1).val = (q ⟨0, by decide⟩).val :=
  dot_S10000x256_S256x256_S10000x256_1_0_0_1_n_n.lhsIdx_val_of_single rfl i q
theorem sup_r0 (i : S10000x256.Idx) (q : dot_S10000x256_S256x256_S10000x256_1_0_0_1_n_n.contr.Idx) :
    (dot_S10000x256_S256x256_S10000x256_1_0_0_1_n_n.rhsIdx i q 0).val = (q ⟨0, by decide⟩).val :=
  dot_S10000x256_S256x256_S10000x256_1_0_0_1_n_n.rhsIdx_val_of_single rfl i q
theorem sup_r1 (i : S10000x256.Idx) (q : dot_S10000x256_S256x256_S10000x256_1_0_0_1_n_n.contr.Idx) :
    (dot_S10000x256_S256x256_S10000x256_1_0_0_1_n_n.rhsIdx i q 1).val = (i 1).val := by
  unfold DotDims.rhsIdx
  rw [dif_neg (show ¬(1 : Fin S256x256.rank) ∈ dot_S10000x256_S256x256_S10000x256_1_0_0_1_n_n.rhsBatch by decide), dif_pos (show (1 : Fin S256x256.rank) ∈ dot_S10000x256_S256x256_S10000x256_1_0_0_1_n_n.rhsNonContracting by decide)]
  rfl

theorem tile_l0 (i : S200x256.Idx) (q : dot_S200x10000_S10000x256_S200x256_1_0_0_1_n_n.contr.Idx) :
    (dot_S200x10000_S10000x256_S200x256_1_0_0_1_n_n.lhsIdx i q 0).val = (i 0).val := by
  unfold DotDims.lhsIdx
  rw [dif_neg (show ¬(0 : Fin S200x10000.rank) ∈ dot_S200x10000_S10000x256_S200x256_1_0_0_1_n_n.lhsBatch by decide), dif_pos (show (0 : Fin S200x10000.rank) ∈ dot_S200x10000_S10000x256_S200x256_1_0_0_1_n_n.lhsNonContracting by decide)]
  rfl
theorem tile_l1 (i : S200x256.Idx) (q : dot_S200x10000_S10000x256_S200x256_1_0_0_1_n_n.contr.Idx) :
    (dot_S200x10000_S10000x256_S200x256_1_0_0_1_n_n.lhsIdx i q 1).val = (q ⟨0, by decide⟩).val :=
  dot_S200x10000_S10000x256_S200x256_1_0_0_1_n_n.lhsIdx_val_of_single rfl i q
theorem tile_r0 (i : S200x256.Idx) (q : dot_S200x10000_S10000x256_S200x256_1_0_0_1_n_n.contr.Idx) :
    (dot_S200x10000_S10000x256_S200x256_1_0_0_1_n_n.rhsIdx i q 0).val = (q ⟨0, by decide⟩).val :=
  dot_S200x10000_S10000x256_S200x256_1_0_0_1_n_n.rhsIdx_val_of_single rfl i q
theorem tile_r1 (i : S200x256.Idx) (q : dot_S200x10000_S10000x256_S200x256_1_0_0_1_n_n.contr.Idx) :
    (dot_S200x10000_S10000x256_S200x256_1_0_0_1_n_n.rhsIdx i q 1).val = (i 1).val := by
  unfold DotDims.rhsIdx
  rw [dif_neg (show ¬(1 : Fin S10000x256.rank) ∈ dot_S200x10000_S10000x256_S200x256_1_0_0_1_n_n.rhsBatch by decide), dif_pos (show (1 : Fin S10000x256.rank) ∈ dot_S200x10000_S10000x256_S200x256_1_0_0_1_n_n.rhsNonContracting by decide)]
  rfl

/-- The support matrix's record: [10000, 256] by [256, 256]. -/
theorem plain_sup : Cert.Lib.PlainDot (R := 10000) (K := 256) (M := 256) dot_S10000x256_S256x256_S10000x256_1_0_0_1_n_n :=
  ⟨rfl, rfl, sup_l0, sup_l1, sup_r0, sup_r1⟩
/-- A result half tile's record: [200, 10000] by [10000, 256]. -/
theorem plain_tile : Cert.Lib.PlainDot (R := 200) (K := 10000) (M := 256) dot_S200x10000_S10000x256_S200x256_1_0_0_1_n_n :=
  ⟨rfl, rfl, tile_l0, tile_l1, tile_r0, tile_r1⟩

/-! ## The windows' blocks as rows of their arrays -/

/-- The index maps over the grid: the adjacency windows take the row blocks 2 t and 2 t + 1 (of 200 rows), the result
    window the row block t (of 400 rows), the feature and weight windows the one block there is. -/
theorem idx_facts : ∀ t : Fin cfg0.N,
    (win0_0.index t 0 = 2 * t.val ∧ win0_0.index t 1 = 0) ∧ (win0_1.index t 0 = 2 * t.val + 1 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0) :=
  (by decide +kernel : ∀ t : Fin grid0.N,
    (win0_0.index t 0 = 2 * t.val ∧ win0_0.index t 1 = 0) ∧ (win0_1.index t 0 = 2 * t.val + 1 ∧ win0_1.index t 1 = 0)
    ∧ (win0_2.index t 0 = 0 ∧ win0_2.index t 1 = 0) ∧ (win0_3.index t 0 = 0 ∧ win0_3.index t 1 = 0)
    ∧ (win0_4.index t 0 = t.val ∧ win0_4.index t 1 = 0))

/-- Row p of the first adjacency tile at point t is row 400 t + p of the adjacency matrix. -/
theorem adjLo_apply (c : Dev nD) (t : Fin cfg0.N) (p : Fin 200) (k : Fin 10000) (r : Fin 10000) (hr : r.val = 400 * t.val + p.val) :
    (iblk m c 0 t : Vec Ideal S200x10000 .f32) (ix2 p k) = (V m c main_arg1 : Vec Ideal S10000x10000 .f32) (ix2 r k) := by
  unfold iblk
  rw [View.read_apply]
  show V m c main_arg1 _ = V m c main_arg1 _
  congr 1
  funext a
  apply Fin.ext
  match a with
  | ⟨0, _⟩ => show win0_0.index t 0 * 200 + 1 * p.val = r.val; rw [(idx_facts t).1.1, hr]; omega
  | ⟨1, _⟩ => show win0_0.index t 1 * 10000 + 1 * k.val = k.val; rw [(idx_facts t).1.2]; omega

/-- Row p of the second adjacency tile at point t is row 400 t + 200 + p of the adjacency matrix. -/
theorem adjHi_apply (c : Dev nD) (t : Fin cfg0.N) (p : Fin 200) (k : Fin 10000) (r : Fin 10000) (hr : r.val = 400 * t.val + 200 + p.val) :
    (iblk m c 1 t : Vec Ideal S200x10000 .f32) (ix2 p k) = (V m c main_arg1 : Vec Ideal S10000x10000 .f32) (ix2 r k) := by
  unfold iblk
  rw [View.read_apply]
  show V m c main_arg1 _ = V m c main_arg1 _
  congr 1
  funext a
  apply Fin.ext
  match a with
  | ⟨0, _⟩ => show win0_1.index t 0 * 200 + 1 * p.val = r.val; rw [(idx_facts t).2.1.1, hr]; omega
  | ⟨1, _⟩ => show win0_1.index t 1 * 10000 + 1 * k.val = k.val; rw [(idx_facts t).2.1.2]; omega

/-- The feature window's one block is the whole flattened feature matrix; -/
theorem xf_blk (c : Dev nD) (t : Fin cfg0.N) : (iblk m c 2 t : Vec Ideal S10000x256 .f32) = V m c main_call0_v0 := by
  funext y
  unfold iblk
  rw [View.read_apply]
  show V m c main_call0_v0 _ = V m c main_call0_v0 y
  congr 1
  funext a
  apply Fin.ext
  match a with
  | ⟨0, _⟩ => show win0_2.index t 0 * 10000 + 1 * (y 0).val = (y 0).val; rw [(idx_facts t).2.2.1.1]; omega
  | ⟨1, _⟩ => show win0_2.index t 1 * 256 + 1 * (y 1).val = (y 1).val; rw [(idx_facts t).2.2.1.2]; omega

/-- and the weight window's the whole weight matrix. -/
theorem w_blk (c : Dev nD) (t : Fin cfg0.N) : (iblk m c 3 t : Vec Ideal S256x256 .f32) = V m c main_arg2 := by
  funext y
  unfold iblk
  rw [View.read_apply]
  show V m c main_arg2 _ = V m c main_arg2 y
  congr 1
  funext a
  apply Fin.ext
  match a with
  | ⟨0, _⟩ => show win0_3.index t 0 * 256 + 1 * (y 0).val = (y 0).val; rw [(idx_facts t).2.2.2.1.1]; omega
  | ⟨1, _⟩ => show win0_3.index t 1 * 256 + 1 * (y 1).val = (y 1).val; rw [(idx_facts t).2.2.2.1.2]; omega

/-! ## The support matrix -/

section Support

variable (dS : DotDims ⟨2, ![10000, 256]⟩ ⟨2, ![256, 256]⟩ ⟨2, ![10000, 256]⟩) (hS : Cert.Lib.PlainDot dS)

include hS in
/-- What the first grid point leaves in the scratch is the host's product of the flattened features and the weights. -/
theorem supp_eq (c : Dev nD) :
    (supp m c : FVec Ideal S10000x256 .f32)
      = Host.dotGeneral (F := Ideal) (φ₁ := .f32) (φ₂ := .f32) dS none (V m c main_call0_v0) (V m c main_arg2) := by
  unfold supp support k0_pay1
  rw [xf_blk, w_blk]
  simp only [shapeCast_self]
  exact Cert.Lib.matmul_eq_dotGeneral plain_sup hS _ _

end Support

/-! ## The result tile is the whole product read through the result window's block -/

section Tile

variable (dO : DotDims ⟨2, ![10000, 10000]⟩ ⟨2, ![10000, 256]⟩ ⟨2, ![10000, 256]⟩) (hO : Cert.Lib.PlainDot dO)

/-- The product of the whole adjacency matrix and the support matrix. -/
def outArr (c : Dev nD) : FVec Ideal S10000x256 .f32 :=
  Host.dotGeneral (F := Ideal) (φ₁ := .f32) (φ₂ := .f32) dO none (V m c main_arg1) (supp m c)

theorem t_lt (t : Fin cfg0.N) : t.val < 25 := by have h := t.isLt; have e : cfg0.N = 25 := N_0; omega

/-- The rows of the adjacency matrix the two half tiles at point t read. -/
def rowLo (t : Fin cfg0.N) (p : Fin 200) : Fin 10000 := ⟨400 * t.val + p.val, by have := t_lt t; have := p.isLt; omega⟩
def rowHi (t : Fin cfg0.N) (p : Fin 200) : Fin 10000 := ⟨400 * t.val + 200 + p.val, by have := t_lt t; have := p.isLt; omega⟩

include hO in
/-- Row p of the result tile's first half is row 400 t + p of the whole product; -/
theorem tile_lo (c : Dev nD) (t : Fin cfg0.N) (p : Fin 200) (j : Fin 256) :
    k0_pay2 (iblk m c 0 t : Vec Ideal S200x10000 .f32) (supp m c) (ix2 p j) = outArr m dO c (ix2 (rowLo t p) j) := by
  unfold k0_pay2 outArr
  exact Cert.Lib.matmul_rows plain_tile hO _ _ _ (rowLo t) (fun p' k => adjLo_apply m c t p' k (rowLo t p') rfl) p j

include hO in
/-- and of its second half row 400 t + 200 + p. -/
theorem tile_hi (c : Dev nD) (t : Fin cfg0.N) (p : Fin 200) (j : Fin 256) :
    k0_pay3 (iblk m c 1 t : Vec Ideal S200x10000 .f32) (supp m c) (ix2 p j) = outArr m dO c (ix2 (rowHi t p) j) := by
  unfold k0_pay3 outArr
  exact Cert.Lib.matmul_rows plain_tile hO _ _ _ (rowHi t) (fun p' k => adjHi_apply m c t p' k (rowHi t p') rfl) p j

include hO in
/-- What point t writes back is the whole product read through the result window's block at t. -/
theorem flushed_eq (c : Dev nD) (t : Fin cfg0.N) (hf : (cfg0.win 4).flush t = true) :
    (dats m 0 c).flushed 4 t = ((cfg0.win 4).blk t).view.read (Elt Ideal) (outArr m dO c) := by
  show (cfg0.win 4).cut (grid0.coords t) ((dats m 0 c).after 4 t) = _
  rw [after0_4]
  show outTile (iblk m c 0 t) (iblk m c 1 t) (supp m c) = _
  funext y
  unfold outTile
  refine (View.canon_apply_of_pieces (fun y' => ((cfg0.win 4).blk t).view.read (Elt Ideal) (outArr m dO c) y') _ ?_ y (outTile_cover _ _ y))
  intro pc hpc x
  simp only [List.mem_cons, List.mem_nil_iff, or_false] at hpc
  rcases hpc with rfl | rfl
  · obtain ⟨p, j, rfl⟩ : ∃ (p : Fin 200) (j : Fin 256), x = ix2 p j := ⟨x 0, x 1, eq_ix2 x⟩
    dsimp only
    rw [tile_hi m dO hO c t p j, View.read_apply]
    show outArr m dO c _ = outArr m dO c _
    congr 1
    funext a
    apply Fin.ext
    match a with
    | ⟨0, _⟩ => show 400 * t.val + 200 + p.val = win0_4.index t 0 * 400 + 1 * (200 + 1 * p.val); rw [(idx_facts t).2.2.2.2.1]; omega
    | ⟨1, _⟩ => show j.val = win0_4.index t 1 * 256 + 1 * (0 + 1 * j.val); rw [(idx_facts t).2.2.2.2.2]; omega
  · obtain ⟨p, j, rfl⟩ : ∃ (p : Fin 200) (j : Fin 256), x = ix2 p j := ⟨x 0, x 1, eq_ix2 x⟩
    dsimp only
    rw [tile_lo m dO hO c t p j, View.read_apply]
    show outArr m dO c _ = outArr m dO c _
    congr 1
    funext a
    apply Fin.ext
    match a with
    | ⟨0, _⟩ => show 400 * t.val + p.val = win0_4.index t 0 * 400 + 1 * (0 + 1 * p.val); rw [(idx_facts t).2.2.2.2.1]; omega
    | ⟨1, _⟩ => show j.val = win0_4.index t 1 * 256 + 1 * (0 + 1 * j.val); rw [(idx_facts t).2.2.2.2.2]; omega

/-- The result window's blocks are uncut: 400 rows of 256 at every point. -/
theorem xsz : ∀ t : Fin cfg0.N, win0_4.xsize (grid0.coords t) 0 = 400 ∧ win0_4.xsize (grid0.coords t) 1 = 256 :=
  (by decide +kernel : ∀ t : Fin grid0.N, win0_4.xsize (grid0.coords t) 0 = 400 ∧ win0_4.xsize (grid0.coords t) 1 = 256)

include hO in
/-- The 25 blocks of 400 rows cover the result array (row r is in block r / 400), so it ends holding the whole product. -/
theorem final_out (c : Dev nD) : (dats m 0 c).arrAt 4 cfg0.N = outArr m dO c :=
  (dats m 0 c).arrAt_eq_of_cover 4 (outArr m dO c) (flushed_eq m dO hO c) fun i => by
    have h0 : (i 0 : Nat) < 10000 := (i 0).isLt
    have h1 : (i 1 : Nat) < 256 := (i 1).isLt
    have hlt : (i 0 : Nat) / 400 < cfg0.N := by rw [show cfg0.N = 25 from N_0]; omega
    refine ⟨⟨(i 0 : Nat) / 400, hlt⟩, flush0_4 _, ?_⟩
    show i ∈ ((View.whole main_v0).slice (win0_4.rect ⟨(i 0 : Nat) / 400, hlt⟩)).set
    rw [View.set_slice_whole, Rect.mem_set_unit]
    intro a
    match a with
    | ⟨0, _⟩ =>
      show win0_4.index ⟨(i 0 : Nat) / 400, hlt⟩ 0 * win0_4.size 0 ≤ (i 0 : Nat)
        ∧ (i 0 : Nat) < win0_4.index ⟨(i 0 : Nat) / 400, hlt⟩ 0 * win0_4.size 0 + win0_4.xsize (grid0.coords ⟨(i 0 : Nat) / 400, hlt⟩) 0
      rw [(idx_facts ⟨(i 0 : Nat) / 400, hlt⟩).2.2.2.2.1, (xsz ⟨(i 0 : Nat) / 400, hlt⟩).1]
      show (i 0 : Nat) / 400 * 400 ≤ (i 0 : Nat) ∧ (i 0 : Nat) < (i 0 : Nat) / 400 * 400 + 400
      omega
    | ⟨1, _⟩ =>
      show win0_4.index ⟨(i 0 : Nat) / 400, hlt⟩ 1 * win0_4.size 1 ≤ (i 1 : Nat)
        ∧ (i 1 : Nat) < win0_4.index ⟨(i 0 : Nat) / 400, hlt⟩ 1 * win0_4.size 1 + win0_4.xsize (grid0.coords ⟨(i 0 : Nat) / 400, hlt⟩) 1
      rw [(idx_facts ⟨(i 0 : Nat) / 400, hlt⟩).2.2.2.2.2, (xsz ⟨(i 0 : Nat) / 400, hlt⟩).2]
      omega

include hO in
/-- The run, read: the result array at the whole product, the three arguments unchanged. -/
theorem run_value (ρ : Dev nD → PrngReg) :
    θ_run defs (onTc (τ := τ) (main (F := Ideal))) ⟨m, fun _ => 0, ρ⟩ (fun r => ∀ c : Dev nD,
      r.2.mem ((c.tc : Thread nD τ).loc main_v0) = outArr m dO c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 4).trans (final_out m dO hO c),
      ((h c).2 main_arg0 (Pipeline.mem_restRefs_of main_arg0 (by decide) (by decide))).trans (V_main_arg0 m c),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c)))⟩) (run_main m ρ)

/-- The one host operation before the region: the region finds the flattened features at the reshape of the features. -/
theorem V_xf (c : Dev nD) :
    (V m c main_call0_v0 : FVec Ideal S10000x256 .f32)
      = shapeCast S10000x256 (m ((c : Thread nD τ).loc main_arg0)) shapeCasts_S10000x16x16_S10000x256 := by
  show StableHlo.after hostOps0 (fun b => m (c, b)) (Proc.devRef .tc main_call0_v0) = _
  after_results
  rfl

variable (dS : DotDims ⟨2, ![10000, 256]⟩ ⟨2, ![256, 256]⟩ ⟨2, ![10000, 256]⟩) (hS : Cert.Lib.PlainDot dS)

include hS in
/-- The whole product over the launch contents: the adjacency matrix times (the reshaped features times the weights). -/
theorem outArr_eq (c : Dev nD) :
    outArr m dO c = Host.dotGeneral (F := Ideal) (φ₁ := .f32) (φ₂ := .f32) dO none (m ((c : Thread nD τ).loc main_arg1))
      (Host.dotGeneral (F := Ideal) (φ₁ := .f32) (φ₂ := .f32) dS none
        (shapeCast S10000x256 (m ((c : Thread nD τ).loc main_arg0)) shapeCasts_S10000x16x16_S10000x256)
        (m ((c : Thread nD τ).loc main_arg2))) := by
  unfold outArr
  rw [supp_eq m dS hS c, V_xf, V_main_arg1, V_main_arg2]

end Tile

end Cert.KernelIdeal.Hand

end
-- ==== Proof.Reference.lean ====
/-
  The reference program, for the bridge: its two `dot_general`s are plain matrix products.

  The reference flattens the features, multiplies them by the weights, and multiplies the adjacency matrix by the result.
  Its run and the index-by-index reading of each operation are generated; what is stated here is only that each of its two
  dimension records contracts the left operand's columns against the right operand's rows and nothing else, from the four
  axis facts the generated reading proves for each record.
-/
import proofs.«104771_g55241869361592_cont_9to1c4b_774_7_alg».proof.Proof.Gen.ReferenceIdeal.Run
import proofs.«104771_g55241869361592_cont_9to1c4b_774_7_alg».proof.Proof.Gen.ReferenceIdeal.Read
import proofs.«104771_g55241869361592_cont_9to1c4b_774_7_alg».proof.Proof.LibAffineRows

noncomputable section

namespace Cert.ReferenceIdeal.RefValue

open Cert.ReferenceIdeal Cert.ReferenceIdeal.Gen Idealize.ShloMosaic

/-- The features times the weights: [10000, 256] by [256, 256]. -/
theorem plain_sup : Cert.Lib.PlainDot (R := 10000) (K := 256) (M := 256) dot_S10000x256_S256x256_S10000x256_1_0_0_1_n_n :=
  ⟨rfl, rfl, Read.lhs_main_v1_0, Read.lhs_main_v1_1, Read.rhs_main_v1_0, Read.rhs_main_v1_1⟩

/-- The adjacency matrix times that product: [10000, 10000] by [10000, 256]. -/
theorem plain_out : Cert.Lib.PlainDot (R := 10000) (K := 10000) (M := 256) dot_S10000x10000_S10000x256_S10000x256_1_0_0_1_n_n :=
  ⟨rfl, rfl, Read.lhs_main_v2_0, Read.lhs_main_v2_1, Read.rhs_main_v2_0, Read.rhs_main_v2_1⟩

end Cert.ReferenceIdeal.RefValue

end
-- ==== Proof.lean ====
/-
  A graph-convolution layer: out = adj · (flatten(x) · W), for x : [10000, 16, 16], adj : [10000, 10000], W : [256, 256].

  The kernel walks the rows of the adjacency matrix in 25 steps of 400. At the first step it computes the support matrix
  flatten(x) · W once, into a scratch buffer it keeps for the rest of the run; at every step it multiplies two 200-row tiles
  of the adjacency matrix (both read from the one adjacency array, through two windows) by the support matrix and stores
  the two products as the two halves of a 400-row tile of the result. The reference flattens x and takes the two matrix
  products whole.

  The frames. Each kernel program runs to the end without a fault and leaves its arguments unchanged: the proof data say what
  every window's buffer holds after the body at each step and that the scratch holds the support matrix from the first step
  on; the body is run symbolically at the first step and at a later one; the adjacency array's full share is dealt by halves
  to its two windows at the launch. The text is generic in the float instance and serves the word-level program and the
  idealized one alike. The reference's frame is its generated run.

  The values. Over the extended reals a matrix unit's product into zeros and the host's dot_general are the same sum over the
  contracted index; a change of float format is the identity. So the scratch holds the host's product flatten(x) · W, row p
  of either half tile is the row of adj · (flatten(x) · W) that tile covers, the 25 tiles cover the 10000 rows, and the
  kernel's result array ends at exactly the term the reference's run ends at. No law beyond the definition of the two
  products is used, and none needs the inputs finite: the precondition is never opened.
  The idealization rewrote nothing, so `preserves` is the trivial statement.
-/
import proofs.«104771_g55241869361592_cont_9to1c4b_774_7_alg».proof.Defs
import proofs.«104771_g55241869361592_cont_9to1c4b_774_7_alg».proof.Proof.Gen.Kernel
import proofs.«104771_g55241869361592_cont_9to1c4b_774_7_alg».proof.Proof.Gen.KernelIdeal
import proofs.«104771_g55241869361592_cont_9to1c4b_774_7_alg».proof.Proof.Gen.ReferenceIdeal
import proofs.«104771_g55241869361592_cont_9to1c4b_774_7_alg».proof.Proof.Gen.Pre_finite_inputs
import proofs.«104771_g55241869361592_cont_9to1c4b_774_7_alg».proof.Proof.Bits.Launch
import proofs.«104771_g55241869361592_cont_9to1c4b_774_7_alg».proof.Proof.Ideal.Value
import proofs.«104771_g55241869361592_cont_9to1c4b_774_7_alg».proof.Proof.Reference
import Idealize.ShloMosaic.Adequacy
import Idealize.ShloMosaic.Init

noncomputable section

namespace Cert.Proof

open Idealize.ShloMosaic Idealize.SL.Sem

/-- The word-level kernel runs to the end, faults nowhere and leaves its arguments unchanged. -/
theorem frame_k : Cert.frame_Kernel := fun m ρ _ => Cert.Kernel.Hand.frame m ρ

/-- So does the idealized kernel. -/
theorem frame_ki : Cert.frame_KernelIdeal := fun m ρ _ => Cert.KernelIdeal.Hand.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the adjacency matrix times (the flattened features times
    the weights): the kernel's result array by its tiles, the reference's by its run. -/
theorem algebraic : Cert.algebraic_KernelIdeal_ReferenceIdeal := by
  intro m ρ m' ρ' _ hagree
  refine ⟨fun c => Cert.KernelIdeal.Hand.outArr m Cert.ReferenceIdeal.dot_S10000x10000_S10000x256_S10000x256_1_0_0_1_n_n c,
    Cert.KernelIdeal.Hand.run_value m _ Cert.ReferenceIdeal.RefValue.plain_out ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact (Cert.KernelIdeal.Hand.outArr_eq m Cert.ReferenceIdeal.dot_S10000x10000_S10000x256_S10000x256_1_0_0_1_n_n _
    Cert.ReferenceIdeal.RefValue.plain_sup c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
